-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64x128 : Shape := ⟨3, ![32768, 64, 128]⟩
abbrev S10x64 : Shape := ⟨2, ![10, 64]⟩
abbrev S_ : Shape := ⟨0, ![]⟩

class Facts : Prop where
  bcast_S_S32768x64x128 : S_.BroadcastsInDim S32768x64x128 (![] : Fin 0 → Fin S32768x64x128.rank)
  reducesTo_S32768x64x128_S_d0_1_2 : S32768x64x128.ReducesTo [0, 1, 2] S_
  h_S_ : 0 < S_.numel
  bcast_S_S10x64 : S_.BroadcastsInDim S10x64 (![] : Fin 0 → Fin S10x64.rank)
  reducesTo_S10x64_S_d0_1 : S10x64.ReducesTo [0, 1] S_

variable [Facts]

def fn {F : FTy → Type} [FloatOps F] (main_arg0 : FVec F S32768x64x128 .f32) (main_arg1 : FVec F S10x64 .f32) : IVec S_ 1 :=
  let main_v0 : FVec F S32768x64x128 .f32 := Host.absf main_arg0
  let main_cst : FVec F S_ .f32 := constant S_ .f32 0x7F800000#32
  let main_v1 : FVec F S32768x64x128 .f32 := broadcastInDim S32768x64x128 ![] bcast_S_S32768x64x128 main_cst
  let main_v2 : IVec S32768x64x128 1 := cmpf .olt main_v0 main_v1
  let main_c : IVec S_ 1 := constantI S_ 1 1#1
  let main_v3 : IVec S_ 1 := (fun x v => Host.reduce IntOp.andi x v reducesTo_S32768x64x128_S_d0_1_2 h_S_) main_v2 main_c
  let main_v4 : FVec F S10x64 .f32 := Host.absf main_arg1
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  main_v8
-- ==== Kernel.lean ====
abbrev S32768x64x128 : Shape := ⟨3, ![32768, 64, 128]⟩
abbrev S10x64 : Shape := ⟨2, ![10, 64]⟩
abbrev S32768x10 : Shape := ⟨2, ![32768, 10]⟩
abbrev S128x64x128 : Shape := ⟨3, ![128, 64, 128]⟩
abbrev S128x10 : Shape := ⟨2, ![128, 10]⟩
abbrev S128x64 : Shape := ⟨2, ![128, 64]⟩
abbrev S64x10 : Shape := ⟨2, ![64, 10]⟩

abbrev nBuf : Space → Nat
  | .hbm => 3
  | .vmem => 5
  | .smem => 0
  | _ => 0

abbrev bufTy : (tb : Table) → Fin (tcTables nBuf tb) → BufTy
  | .hbm, ⟨0, _⟩ => ⟨S32768x64x128, .f32⟩
  | .hbm, ⟨1, _⟩ => ⟨S10x64, .f32⟩
  | .hbm, ⟨2, _⟩ => ⟨S32768x10, .f32⟩
  | .local _ .vmem, ⟨0, _⟩ => ⟨S128x64x128, .f32⟩
  | .local _ .vmem, ⟨1, _⟩ => ⟨S128x64x128, .f32⟩
  | .local _ .vmem, ⟨2, _⟩ => ⟨S10x64, .f32⟩
  | .local _ .vmem, ⟨3, _⟩ => ⟨S128x10, .f32⟩
  | .local _ .vmem, ⟨4, _⟩ => ⟨S128x10, .f32⟩
  | _, _ => ⟨S32768x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x64x128_S128x64x128_0_0_0 : ∀ a, (![0, 0, 0] : Fin 3 → Nat) a + S128x64x128.size a ≤ S128x64x128.size a
  h_S128x64x128 : 0 < S128x64x128.numel
  reduces_S128x64x128_S128x64 : S128x64x128.Reduces [2] S128x64
  inb_S10x64_S10x64_0_0 : ∀ a, (![0, 0] : Fin 2 → Nat) a + S10x64.size a ≤ S10x64.size a
  h_S10x64 : 0 < S10x64.numel
  bitsLt_bf16_f32 : FTy.bits .bf16 < FTy.bits .f32
  transposes_S10x64_p1_0_S64x10 : S10x64.Transposes [1, 0] S64x10
  inb_S128x10_S128x10_0_0 : ∀ a, (![0, 0] : Fin 2 → Nat) a + S128x10.size a ≤ S128x10.size a
  h_S128x10 : 0 < S128x10.numel
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S32768x64x128.size a
  hwx0_0 : ∀ i : grid0.Coords, EltTy.bits .f32 = 32 ∨ (Rect.block (s := S32768x64x128) S128x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x64.size a ≤ S10x64.size a
  hwx0_1 : ∀ i : grid0.Coords, EltTy.bits .f32 = 32 ∨ (Rect.block (s := S10x64) S10x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x10.size a ≤ S32768x10.size a
  hwx0_2 : ∀ i : grid0.Coords, EltTy.bits .f32 = 32 ∨ (Rect.block (s := S32768x10) S128x10.size (cc0_transform_2 i) (hinb0_2 i)).WholeWords (EltTy.packing .f32)

variable [Facts₀]

def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x64x128 : Shape := ⟨3, ![32768, 64, 128]⟩
abbrev S10x64 : Shape := ⟨2, ![10, 64]⟩
abbrev S_ : Shape := ⟨0, ![]⟩
abbrev S32768x64 : Shape := ⟨2, ![32768, 64]⟩
abbrev S32768x10 : Shape := ⟨2, ![32768, 10]⟩

abbrev nBuf : Space → Nat
  | .hbm => 7
  | .vmem => 0
  | .smem => 0
  | _ => 0

abbrev bufTy : (tb : Table) → Fin (tcTables nBuf tb) → BufTy
  | .hbm, ⟨0, _⟩ => ⟨S32768x64x128, .f32⟩
  | .hbm, ⟨1, _⟩ => ⟨S10x64, .f32⟩
  | .hbm, ⟨2, _⟩ => ⟨S32768x64x128, .f32⟩
  | .hbm, ⟨3, _⟩ => ⟨S_, .f32⟩
  | .hbm, ⟨4, _⟩ => ⟨S32768x64, .f32⟩
  | .hbm, ⟨5, _⟩ => ⟨S10x64, .f32⟩
  | .hbm, ⟨6, _⟩ => ⟨S32768x10, .f32⟩
  | _, _ => ⟨S32768x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S32768x64x128_S32768x64_d2 : S32768x64x128.ReducesTo [2] S32768x64
  h_S_ : 0 < S_.numel
  dot_S32768x64_S10x64_S32768x10_1_1_0_0_n_n_wf : DotDims.WF S32768x64 S10x64 S32768x10 [1] [1] [0] [0] [] []

variable [Facts₀]

def dot_S32768x64_S10x64_S32768x10_1_1_0_0_n_n : DotDims S32768x64 S10x64 S32768x10 where
  lhsContracting := [1]
  rhsContracting := [1]
  lhsNonContracting := [0]
  rhsNonContracting := [0]
  lhsBatch := []
  rhsBatch := []
  wf := dot_S32768x64_S10x64_S32768x10_1_1_0_0_n_n_wf

class Facts : Prop extends Facts₀ where

variable [Facts]
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.FieldEnergy.lean ====
/-
  The quantity both programs compute, and the arithmetic of one batch tile read entry by entry, at the ideal instance
  (floats are extended reals, every operation exact, a change of float format the identity).

  For an array `x` of `R × B × C` numbers (rows, fields, embedding coordinates) and a table `w` of `N × B` weights,
  the result at row `r` and column `p` is

      ∑ f,  ( ∑ e, x[r, f, e]² ) · w[p, f]²

  — the squared length of each field's embedding, weighted by the squared table entry, summed over the fields.
  This is `∑ f, ∑ e, (x[r, f, e] · w[p, f])²` with the factor that does not depend on `e` taken out of the inner sum;
  both programs compute it in the factored form, so no rearrangement of sums is needed to compare them, only the
  reading of each operation at an entry.

  The tile computation: square the tile entry by entry, sum over the last axis (one number per row and field), square the
  table, lay the squared table out transposed (`B × N`), and multiply the `A × B` matrix of sums by it on the matrix
  unit into a zero accumulator. The roundings to a narrower format before the product are the identity here, so at
  entry `(p, q)` the product is the sum over fields `f` of (the sum of squares of row `p`, field `f`) times (the
  squared table entry `(q, f)`).
-/
import proofs.«145840_j7868380086487_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.FieldEnergy

open Idealize.ShloMosaic Idealize.ShloMosaic.ValueIdx

/-- The weighted field energies: at `(r, p)`, the sum over fields of the field's squared length in row `r` times the
    square of the table's entry `(p, f)`. -/
def energy {R B C N : ℕ} (x : (⟨3, ![R, B, C]⟩ : Shape).Idx → EReal) (w : (⟨2, ![N, B]⟩ : Shape).Idx → EReal) :
    (⟨2, ![R, N]⟩ : Shape).Idx → EReal :=
  fun j => ∑ f : Fin B, (∑ e : Fin C, x (ix3 (j 0) f e) * x (ix3 (j 0) f e)) * (w (ix2 (j 1) f) * w (ix2 (j 1) f))

/-- The definition at explicit coordinates. -/
theorem energy_ix2 {R B C N : ℕ} (x : (⟨3, ![R, B, C]⟩ : Shape).Idx → EReal) (w : (⟨2, ![N, B]⟩ : Shape).Idx → EReal)
    (r : Fin R) (p : Fin N) :
    energy x w (ix2 r p) = ∑ f : Fin B, (∑ e : Fin C, x (ix3 r f e) * x (ix3 r f e)) * (w (ix2 p f) * w (ix2 p f)) := rfl

/-- The index a reduction over the last of three axes inserts at `(p, f)`, coordinate `e`, is `(p, f, e)`. -/
theorem lift_last {A B C : ℕ} (h : Shape.Reduces ⟨3, ![A, B, C]⟩ [2] ⟨2, ![A, B]⟩) (p : Fin A) (f : Fin B) (e : Fin C) :
    h.lift (ix2 p f) e = ix3 p f e :=
  funext fun d => Fin.ext (by match d with | ⟨0, _⟩ => rfl | ⟨1, _⟩ => rfl | ⟨2, _⟩ => rfl)

/-- The entrywise square summed over the last axis, at `(p, f)`: the sum of the squares of that row's and field's
    coordinates. -/
theorem sumsq_last_apply {A B C : ℕ} (v : FVec Ideal ⟨3, ![A, B, C]⟩ .f32)
    (h : Shape.Reduces ⟨3, ![A, B, C]⟩ [2] ⟨2, ![A, B]⟩) (hφ : FKind.Formats .f32)
    (hacc : (0x00000000#32 : BitVec FTy.f32.bits) = FKind.add.neutral .f32 hφ) (p : Fin A) (f : Fin B) :
    multiReduction .add [2] ⟨2, ![A, B]⟩ (mulf v v) 0x00000000#32 h hφ hacc (ix2 p f)
      = ∑ e : Fin C, v (ix3 p f e) * v (ix3 p f e) :=
  (Ideal.multiReduction_add_single (mulf v v) _ h hφ hacc (ix2 p f)).trans
    (Finset.sum_congr rfl fun e _ => by rw [lift_last h p f e]; rfl)

/-- One tile's product at entry `(p, q)`: the matrix of per-field sums of squares times the transposed squared table,
    into a zero accumulator, is the weighted sum over fields. -/
theorem tile_apply {A B C N : ℕ} (v : FVec Ideal ⟨3, ![A, B, C]⟩ .f32) (u : FVec Ideal ⟨2, ![N, B]⟩ .f32)
    (h : Shape.Reduces ⟨3, ![A, B, C]⟩ [2] ⟨2, ![A, B]⟩) (hφ : FKind.Formats .f32)
    (hacc : (0x00000000#32 : BitVec FTy.f32.bits) = FKind.add.neutral .f32 hφ)
    (ht : (⟨2, ![N, B]⟩ : Shape).Transposes [1, 0] ⟨2, ![B, N]⟩) (hb : FTy.bf16.bits < FTy.f32.bits)
    (p : Fin A) (q : Fin N) :
    matmul (DotDims.plain A B N) none
        (truncf .bf16 (multiReduction .add [2] ⟨2, ![A, B]⟩ (mulf v v) 0x00000000#32 h hφ hacc) hb)
        (transpose ⟨2, ![B, N]⟩ [1, 0] (truncf .bf16 (mulf u u) hb) ht)
        (constant ⟨2, ![A, N]⟩ .f32 0x00000000#32) (ix2 p q)
      = ∑ f : Fin B, (∑ e : Fin C, v (ix3 p f e) * v (ix3 p f e)) * (u (ix2 q f) * u (ix2 q f)) := by
  refine (Cert.Gnn.plain_matmul_apply A B N none _ _ (ix2 p q)).trans ?_
  refine Finset.sum_congr rfl fun f _ => ?_
  show (truncf .bf16 (multiReduction .add [2] ⟨2, ![A, B]⟩ (mulf v v) 0x00000000#32 h hφ hacc) hb) (ix2 p f)
      * (transpose ⟨2, ![B, N]⟩ [1, 0] (truncf .bf16 (mulf u u) hb) ht) (ix2 f q) = _
  rw [truncf_apply, transpose_ix2_apply, truncf_apply, mulf_apply, sumsq_last_apply]

end Cert.FieldEnergy

end
-- ==== Proof.KernelTiles.lean ====
/-
  What the kernel's result array holds after the run: the weighted field energies of its two arguments.

  The grid has 256 points. Point `t` stages rows `128·t … 128·t + 127` of `x` (all fields, all coordinates), the whole
  table, and writes back rows `128·t … 128·t + 127` of the result (all ten columns). On one tile the body computes, at
  `(p, q)`, the sum over fields of the sum of squares of tile row `p` times the squared table entry `(q, f)`
  (`Cert.FieldEnergy.tile_apply`); tile row `p` of point `t` is row `128·t + p` of `x`, so the block written back is
  the same rows of `energy x w`. The 256 blocks cover every row of the result — row `r` lies in the block of point
  `r / 128` — so the array ends holding `energy x w` everywhere.
-/
import proofs.«145840_j7868380086487_1_alg».proof.Proof.Gen.KernelIdeal.Value
import proofs.«145840_j7868380086487_1_alg».proof.Proof.FieldEnergy

set_option maxRecDepth 16384

noncomputable section

open scoped BigOperators

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's stored value at tile entry `(p, q)`. -/
theorem pay_apply (v0 : Vec Ideal S128x64x128 .f32) (v3 : Vec Ideal S10x64 .f32) (p : Fin 128) (q : Fin 10) :
    k0_pay1 v0 v3 (ix2 p q)
      = ∑ f : Fin 64, (∑ e : Fin 128, v0 (ix3 p f e) * v0 (ix3 p f e)) * (v3 (ix2 q f) * v3 (ix2 q f)) :=
  Cert.FieldEnergy.tile_apply (A := 128) (B := 64) (C := 128) (N := 10) v0 v3 _ _ _ _ _ p q

/-- If tile row `j₀` is row `J₀` of `X` and the staged table is `W`, the body's value at `j` is the energy at `J`. -/
theorem tile_energy (X : S32768x64x128.Idx → EReal) (W : S10x64.Idx → EReal)
    (v0 : Vec Ideal S128x64x128 .f32) (v3 : Vec Ideal S10x64 .f32) (j : S128x10.Idx) (J : S32768x10.Idx)
    (h0 : ∀ (f : Fin 64) (e : Fin 128), v0 (ix3 (j 0) f e) = X (ix3 (J 0) f e))
    (h1 : ∀ f : Fin 64, v3 (ix2 (j 1) f) = W (ix2 (J 1) f)) :
    k0_pay1 v0 v3 j = Cert.FieldEnergy.energy (R := 32768) (B := 64) (C := 128) (N := 10) X W J := by
  refine ((congrArg (k0_pay1 v0 v3) (eq_ix2 j)).trans (pay_apply v0 v3 (j 0) (j 1))).trans ?_
  unfold Cert.FieldEnergy.energy
  refine Finset.sum_congr rfl fun f _ => ?_
  rw [h1 f]
  exact congrArg (· * (W (ix2 (J 1) f) * W (ix2 (J 1) f))) (Finset.sum_congr rfl fun e _ => by rw [h0 f e])

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the 256 points: the `x` window and the result window sit at block row `t`, every
    other block coordinate is zero. -/
theorem block_positions : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the weighted field energies of the arguments. -/
theorem flushed_eq (c : Dev nD) (t : Fin cfg0.N) :
    (dats m 0 c).flushed 2 t = ((cfg0.win 2).blk t).view.read (Elt Ideal)
      (Cert.FieldEnergy.energy (R := 32768) (B := 64) (C := 128) (N := 10) (V m c main_arg0) (V m c main_arg1)) := by
  rw [Value.flushed2]
  unfold out0_2
  rw [View.canon_unit_zero zeros2]
  simp only [View.ld_unit_zero (S := S128x64x128) zeros3, View.ld_unit_zero (S := S10x64) zeros2]
  obtain ⟨a0, a1, a2, b0, b1, o0, o1⟩ := block_positions t
  funext j
  refine tile_energy (V m c main_arg0) (V m c main_arg1) (iblk m c 0 t) (iblk m c 1 t) j (((cfg0.win 2).blk t).view.emb j)
    (fun f e => ?_) (fun f => ?_)
  · show V m c main_arg0 (((cfg0.win 0).blk t).view.emb (ix3 (j 0) f e)) = V m c main_arg0 (ix3 ((((cfg0.win 2).blk t).view.emb j) 0) f e)
    refine congrArg (V m c main_arg0) (funext fun a => Fin.ext ?_)
    match a with
    | ⟨0, _⟩ => show win0_0.index t (0 : Fin 3) * 128 + 1 * (j 0).val = win0_2.index t (0 : Fin 2) * 128 + 1 * (j 0).val; omega
    | ⟨1, _⟩ => show win0_0.index t (1 : Fin 3) * 64 + 1 * f.val = f.val; omega
    | ⟨2, _⟩ => show win0_0.index t (2 : Fin 3) * 128 + 1 * e.val = e.val; omega
  · show V m c main_arg1 (((cfg0.win 1).blk t).view.emb (ix2 (j 1) f)) = V m c main_arg1 (ix2 ((((cfg0.win 2).blk t).view.emb j) 1) f)
    refine congrArg (V m c main_arg1) (funext fun a => Fin.ext ?_)
    match a with
    | ⟨0, _⟩ => show win0_1.index t (0 : Fin 2) * 10 + 1 * (j 1).val = win0_2.index t (1 : Fin 2) * 10 + 1 * (j 1).val; omega
    | ⟨1, _⟩ => show win0_1.index t (1 : Fin 2) * 64 + 1 * f.val = f.val; omega

/-- An index of the result is in point `t`'s block iff each coordinate is in the block's range on its axis. -/
theorem mem_block (t : Fin cfg0.N) (i : S32768x10.Idx) :
    i ∈ ((cfg0.win 2).blk t).view.set ↔ ∀ a : Fin 2, win0_2.index t a * S128x10.size a ≤ (i a).val
      ∧ (i a).val < win0_2.index t a * S128x10.size a + S128x10.size a := by
  show i ∈ ((View.whole main_v0).slice (win0_2.rect t)).set ↔ _
  rw [View.set_slice_whole, Rect.mem_set_unit]
  exact Iff.rfl

/-- Every index of the result lies in the block of the point its row falls in, `i₀ / 128`. -/
theorem covered (i : S32768x10.Idx) :
    ∃ t : Fin cfg0.N, (cfg0.win 2).flush t = true ∧ i ∈ ((cfg0.win 2).blk t).view.set := by
  have hi0 : (i 0).val < 32768 := (i 0).isLt
  have hi1 : (i 1).val < 10 := (i 1).isLt
  have hN : cfg0.N = 256 := N_0
  refine ⟨⟨(i 0).val / 128, by omega⟩, flush0_2 _, ?_⟩
  obtain ⟨-, -, -, -, -, o0, o1⟩ := block_positions ⟨(i 0).val / 128, by omega⟩
  rw [mem_block]
  intro a
  match a with
  | ⟨0, _⟩ =>
    show win0_2.index _ (0 : Fin 2) * 128 ≤ (i 0).val ∧ (i 0).val < win0_2.index _ (0 : Fin 2) * 128 + 128
    rw [o0]; show (i 0).val / 128 * 128 ≤ (i 0).val ∧ (i 0).val < (i 0).val / 128 * 128 + 128; omega
  | ⟨1, _⟩ =>
    show win0_2.index _ (1 : Fin 2) * 10 ≤ (i 1).val ∧ (i 1).val < win0_2.index _ (1 : Fin 2) * 10 + 10
    rw [o1]; omega

/-- The result array after the run is the weighted field energies of the arguments as launched. -/
theorem final (c : Dev nD) : (dats m 0 c).arrAt 2 cfg0.N
    = Cert.FieldEnergy.energy (R := 32768) (B := 64) (C := 128) (N := 10)
        (m ((c : Thread nD τ).loc main_arg0)) (m ((c : Thread nD τ).loc main_arg1)) :=
  (dats m 0 c).arrAt_eq_of_cover 2 _ (fun t _ => flushed_eq m c t) covered

/-- The kernel's run: the result at the weighted field energies, the arguments unchanged. -/
theorem run : θ_run defs (onTc (τ := τ) (main (F := Ideal))) ⟨m, fun _ => 0, ρ⟩ fun r => ∀ c : Dev nD,
      r.2.mem ((c : Thread nD τ).loc main_v0)
        = Cert.FieldEnergy.energy (R := 32768) (B := 64) (C := 128) (N := 10)
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Tiles

end
-- ==== Proof.ReferenceTerm.lean ====
/-
  The reference's result, read one entry at a time, is the weighted field energies of its arguments.

  The reference squares `x` entry by entry, sums the squares over the embedding axis from a zero initial value (one
  number per row and field), squares the table, and contracts the two over the field axis: at `(r, p)` the sum over
  fields `f` of (zero plus the sum of squares of row `r`, field `f`) times the squared table entry `(p, f)`. The zero
  initial value adds nothing, so this is `energy x w` at `(r, p)`, term by term.
-/
import proofs.«145840_j7868380086487_1_alg».proof.Proof.Gen.ReferenceIdeal.Read
import proofs.«145840_j7868380086487_1_alg».proof.Proof.FieldEnergy

noncomputable section

open scoped BigOperators

namespace Cert.ReferenceIdeal.RefEnergy

open Cert.ReferenceIdeal Cert.ReferenceIdeal.Gen Cert.ReferenceIdeal.Read
open Idealize.ShloMosaic Idealize.ShloMosaic.ValueIdx

/-- The entry of `x` the reference's inner sum reads for result index `i`, field `k`, coordinate `e`: `(i₀, k, e)`. -/
theorem field_idx (i : S32768x10.Idx) (k : Fin 64) (e : Fin 128) :
    idx_main_v1 (lidx_main_v3 i k) e = ix3 (i 0) k e :=
  funext fun a => Fin.ext (by match a with | ⟨0, _⟩ => rfl | ⟨1, _⟩ => rfl | ⟨2, _⟩ => rfl)

/-- The table entry the contraction reads for result index `i` and field `k`: `(i₁, k)`. -/
theorem table_idx (i : S32768x10.Idx) (k : Fin 64) : ridx_main_v3 i k = ix2 (i 1) k :=
  funext fun a => Fin.ext (by match a with | ⟨0, _⟩ => rfl | ⟨1, _⟩ => rfl)

/-- The reference's last stage is the weighted field energies of the two arguments. -/
theorem reference_eq (x : (⟨S32768x64x128, .f32⟩ : BufTy).Contents (Elt Ideal)) (w : (⟨S10x64, .f32⟩ : BufTy).Contents (Elt Ideal)) :
    val_main_v3 (F := Ideal) x w = Cert.FieldEnergy.energy (R := 32768) (B := 64) (C := 128) (N := 10) x w := by
  funext i
  rw [val_main_v3_apply]
  refine Finset.sum_congr rfl fun k _ => ?_
  rw [val_main_v1_apply, val_main_v2_apply, val_main_cst_apply, table_idx]
  simp only [val_main_v0_apply, field_idx]
  show (Ideal.ofBits .f32 0x00000000#32 + ∑ e : Fin 128, x (ix3 (i 0) k e) * x (ix3 (i 0) k e)) * (w (ix2 (i 1) k) * w (ix2 (i 1) k)) = _
  rw [Ideal.ofBits_zero_f32, zero_add]

end Cert.ReferenceIdeal.RefEnergy

end
-- ==== Proof.lean ====
/-
  The kernel and its reference compute the same array of weighted field energies.

  For `x` of shape [32768, 64, 128] (rows, fields, embedding coordinates) and a table `w` of shape [10, 64], both programs
  produce, at row `r` and column `p`,

      ∑ f,  ( ∑ e, x[r, f, e]² ) · w[p, f]²        (`Cert.FieldEnergy.energy`).

  The kernel does it 128 rows at a time: it squares the tile, sums over the embedding axis, squares the table, and
  multiplies the 128 × 64 matrix of sums by the transposed squared table on the matrix unit into a zero accumulator; the
  narrowing of both factors before the product is the identity on extended reals, and the 256 tiles cover every row
  (Proof/KernelTiles.lean). The reference squares, sums over the last axis from zero, squares the table, and contracts
  the field axis of both (Proof/ReferenceTerm.lean). Entry by entry the two are the same sum of the same products in the
  same order, so no law of arithmetic beyond `0 + a = a` is used, and the finiteness of the inputs is never needed.

  The frames of the two kernel programs are the generated ones; the reference's frame is its generated run with the
  result dropped. The idealization pass rewrote nothing, so there is nothing to preserve.
-/
import proofs.«145840_j7868380086487_1_alg».proof.Defs
import proofs.«145840_j7868380086487_1_alg».proof.Proof.Gen.Kernel
import proofs.«145840_j7868380086487_1_alg».proof.Proof.Gen.Kernel.Skeleton
import proofs.«145840_j7868380086487_1_alg».proof.Proof.Gen.Kernel.Launch
import proofs.«145840_j7868380086487_1_alg».proof.Proof.Gen.Kernel.Points
import proofs.«145840_j7868380086487_1_alg».proof.Proof.Gen.Kernel.Frame
import proofs.«145840_j7868380086487_1_alg».proof.Proof.Gen.KernelIdeal
import proofs.«145840_j7868380086487_1_alg».proof.Proof.Gen.KernelIdeal.Skeleton
import proofs.«145840_j7868380086487_1_alg».proof.Proof.Gen.KernelIdeal.Launch
import proofs.«145840_j7868380086487_1_alg».proof.Proof.Gen.KernelIdeal.Points
import proofs.«145840_j7868380086487_1_alg».proof.Proof.Gen.KernelIdeal.Frame
import proofs.«145840_j7868380086487_1_alg».proof.Proof.Gen.ReferenceIdeal
import proofs.«145840_j7868380086487_1_alg».proof.Proof.Gen.Pre_finite_inputs
import proofs.«145840_j7868380086487_1_alg».proof.Proof.Gen.KernelIdeal.Value
import proofs.«145840_j7868380086487_1_alg».proof.Proof.Gen.ReferenceIdeal.Run
import proofs.«145840_j7868380086487_1_alg».proof.Proof.Gen.ReferenceIdeal.Read
import proofs.«145840_j7868380086487_1_alg».proof.Proof.KernelTiles
import proofs.«145840_j7868380086487_1_alg».proof.Proof.ReferenceTerm
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments alone: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `w`, both programs end with the weighted field energies of `x` and `w`. -/
theorem algebraic : Cert.algebraic_KernelIdeal_ReferenceIdeal := by
  intro m ρ m' ρ' _ hagree
  refine ⟨fun c => Cert.FieldEnergy.energy (R := 32768) (B := 64) (C := 128) (N := 10)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefEnergy.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
